-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1x1 : Shape := ⟨2, ![1, 1]⟩
abbrev S2048x1 : Shape := ⟨2, ![2048, 1]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S2048x1 : S_.BroadcastsInDim S2048x1 (![] : Fin 0 → Fin S2048x1.rank)
  reducesTo_S2048x1_S_d0_1 : S2048x1.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S16384x2048 .f32) (main_arg1 : FVec F S1x1 .f32) (main_arg2 : FVec F S2048x1 .f32) (main_arg3 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S16384x2048 : Shape := ⟨2, ![16384, 2048]⟩
abbrev S1x1 : Shape := ⟨2, ![1, 1]⟩
abbrev S2048x1 : Shape := ⟨2, ![2048, 1]⟩
abbrev S2048x2048 : Shape := ⟨2, ![2048, 2048]⟩
abbrev S16384x1 : Shape := ⟨2, ![16384, 1]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S2048x1, .f32⟩
  | .hbm, ⟨3, _⟩ => ⟨S2048x2048, .f32⟩
  | .hbm, ⟨4, _⟩ => ⟨S16384x2048, .bf16⟩
  | .hbm, ⟨5, _⟩ => ⟨S2048x1, .bf16⟩
  | .hbm, ⟨6, _⟩ => ⟨S2048x2048, .bf16⟩
  | .hbm, ⟨7, _⟩ => ⟨S16384x1, .f32⟩
  | .local _ .vmem, ⟨0, _⟩ => ⟨S1024x2048, .bf16⟩
  | .local _ .vmem, ⟨1, _⟩ => ⟨S1024x2048, .bf16⟩
  | .local _ .vmem, ⟨2, _⟩ => ⟨S1x1, .f32⟩
  | .local _ .vmem, ⟨3, _⟩ => ⟨S2048x1, .bf16⟩
  | .local _ .vmem, ⟨4, _⟩ => ⟨S2048x2048, .bf16⟩
  | .local _ .vmem, ⟨5, _⟩ => ⟨S1024x1, .f32⟩
  | .local _ .vmem, ⟨6, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S1024x2048_S1024 : S1024x2048.Reduces [1] S1024
  shapeCasts_S1024_S1024x1 : S1024.ShapeCasts S1024x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x2048_S2048x2048_S1024x2048_1_0_0_1_n_n_wf : DotDims.WF S1024x2048 S2048x2048 S1024x2048 [1] [0] [0] [1] [] []
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .bf16 = 32 ∨ (Rect.block (s := S16384x2048) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .bf16 = 32 ∨ (Rect.block (s := S2048x1) S2048x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1x1 : Shape := ⟨2, ![1, 1]⟩
abbrev S2048x1 : Shape := ⟨2, ![2048, 1]⟩
abbrev S2048x2048 : Shape := ⟨2, ![2048, 2048]⟩
abbrev S16384x1 : Shape := ⟨2, ![16384, 1]⟩
abbrev S_ : Shape := ⟨0, ![]⟩
abbrev S16384 : Shape := ⟨1, ![16384]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S2048x1, .f32⟩
  | .hbm, ⟨3, _⟩ => ⟨S2048x2048, .f32⟩
  | .hbm, ⟨4, _⟩ => ⟨S16384x1, .f32⟩
  | .hbm, ⟨5, _⟩ => ⟨S16384x1, .f32⟩
  | .hbm, ⟨6, _⟩ => ⟨S16384x1, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S1x1_S16384x1_0_1 : S1x1.BroadcastsInDim S16384x1 (![0, 1] : Fin 2 → Fin S16384x1.rank)
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x2048_S2048x1_S16384x1_1_0_0_1_n_n_wf : DotDims.WF S16384x2048 S2048x1 S16384x1 [1] [0] [0] [1] [] []
  dot_S16384x2048_S2048x2048_S16384x2048_1_0_0_1_n_n_wf : DotDims.WF S16384x2048 S2048x2048 S16384x2048 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The function both programs compute, as one formula over the argument arrays.

  For a row r of x, the score is
      (w0 + Σ_k x[r,k]·w1[k]) + Σ_j (Σ_k x[r,k]·w2[k,j]) · x[r,j],
  a constant plus a linear form plus a quadratic form in the row, and the result at (r, 0) is the logistic
  function 1 / (1 + e^(-s)) of that score. The grouping of the three summands is the one both programs use,
  and every sum is a finite sum in the commutative monoid of the extended reals, so no law that fails at an
  infinity is used anywhere: the statement holds for every extended-real input.
-/
import Idealize.ShloMosaic.PureOps.Ideal.Laws
import Idealize.ShloMosaic.Lib.ValueIdx

noncomputable section

namespace Cert.Poly2

open Idealize.ShloMosaic Idealize.ShloMosaic.ValueIdx
open scoped BigOperators

/-- The linear form of row `r`: Σ_k x[r,k]·w1[k,0]. -/
def lin (x : (⟨2, ![16384, 2048]⟩ : Shape).Idx → EReal) (w1 : (⟨2, ![2048, 1]⟩ : Shape).Idx → EReal) (r : Fin 16384) : EReal :=
  ∑ k : Fin 2048, x (ix2 r k) * w1 (ix2 k (0 : Fin 1))

/-- The quadratic form of row `r`: Σ_j (Σ_k x[r,k]·w2[k,j]) · x[r,j]. -/
def quad (x : (⟨2, ![16384, 2048]⟩ : Shape).Idx → EReal) (w2 : (⟨2, ![2048, 2048]⟩ : Shape).Idx → EReal) (r : Fin 16384) : EReal :=
  ∑ j : Fin 2048, (∑ k : Fin 2048, x (ix2 r k) * w2 (ix2 k j)) * x (ix2 r j)

/-- The score of row `r`: the constant plus the linear form, then plus the quadratic form. -/
def score (x : (⟨2, ![16384, 2048]⟩ : Shape).Idx → EReal) (w0 : (⟨2, ![1, 1]⟩ : Shape).Idx → EReal)
    (w1 : (⟨2, ![2048, 1]⟩ : Shape).Idx → EReal) (w2 : (⟨2, ![2048, 2048]⟩ : Shape).Idx → EReal) (r : Fin 16384) : EReal :=
  (w0 (ix2 (0 : Fin 1) (0 : Fin 1)) + lin x w1 r) + quad x w2 r

/-- The result array [16384, 1]: the logistic function of each row's score. -/
def result (x : (⟨2, ![16384, 2048]⟩ : Shape).Idx → EReal) (w0 : (⟨2, ![1, 1]⟩ : Shape).Idx → EReal)
    (w1 : (⟨2, ![2048, 1]⟩ : Shape).Idx → EReal) (w2 : (⟨2, ![2048, 2048]⟩ : Shape).Idx → EReal) :
    (⟨2, ![16384, 1]⟩ : Shape).Idx → EReal :=
  fun i => Ideal.logistic (score x w0 w1 w2 (i 0))

/-- The word of the float one denotes the extended real one. -/
theorem ofBits_one_f32 : Ideal.ofBits .f32 0x3F800000#32 = 1 := by
  simp [Ideal.ofBits, Ideal.ieee, -EReal.coe_mul]; norm_num

theorem result_apply (x : (⟨2, ![16384, 2048]⟩ : Shape).Idx → EReal) (w0 : (⟨2, ![1, 1]⟩ : Shape).Idx → EReal)
    (w1 : (⟨2, ![2048, 1]⟩ : Shape).Idx → EReal) (w2 : (⟨2, ![2048, 2048]⟩ : Shape).Idx → EReal) (r : Fin 16384) (u : Fin 1) :
    result x w0 w1 w2 (ix2 r u) = Ideal.logistic (score x w0 w1 w2 r) := rfl

end Cert.Poly2

end
-- ==== Proof.RefValue.lean ====
/-
  The reference's last stage is the specification.

  Read one operation at a time, the reference computes, at the entry (r, 0):
  the product x·w1 as the sum over k of x[r,k]·w1[k,0]; w0 repeated down the rows; their sum; the product x·w2 at
  (r, j) as the sum over k of x[r,k]·w2[k,j], times x[r,j], summed over j from the initial value zero; the sum
  of the two; and then 1 / (1 + exp (-s)) spelt with a negation, an exponential, a sum with the constant one and a
  quotient of the constant one. On the extended reals that last expression is the logistic function of s by
  definition, the word of one is the number one, and the zero initial value drops out of the row sum.
-/
import proofs.«168103_j73521250173556_1_alg».proof.Proof.Gen.ReferenceIdeal.Read
import proofs.«168103_j73521250173556_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-! The composed index functions of the read-at-an-index lemmas, at the entry (r, u) of the result. -/

theorem lidx_v0 (r : Fin 16384) (u : Fin 1) (k : Fin 2048) : lidx_main_v0 (ix2 r u) k = ix2 r k :=
  funext fun a => Fin.ext (by match a with | ⟨0, _⟩ => rfl | ⟨1, _⟩ => rfl)

theorem ridx_v0 (r : Fin 16384) (u : Fin 1) (k : Fin 2048) : ridx_main_v0 (ix2 r u) k = ix2 k (0 : Fin 1) :=
  funext fun a => Fin.ext (by
    match a with
    | ⟨0, _⟩ => rfl
    | ⟨1, _⟩ => show u.val = 0; omega)

theorem idx_v1 (r : Fin 16384) (u : Fin 1) : idx_main_v1 (ix2 r u) = ix2 (0 : Fin 1) (0 : Fin 1) :=
  funext fun a => Fin.ext (by match a with | ⟨0, _⟩ => rfl | ⟨1, _⟩ => rfl)

theorem idx_v5 (r : Fin 16384) (u : Fin 1) (j : Fin 2048) : idx_main_v5 (idx_main_v6 (ix2 r u)) j = ix2 r j :=
  funext fun a => Fin.ext (by match a with | ⟨0, _⟩ => rfl | ⟨1, _⟩ => rfl)

theorem lidx_v3 (r : Fin 16384) (j k : Fin 2048) : lidx_main_v3 (ix2 r j) k = ix2 r k :=
  funext fun a => Fin.ext (by match a with | ⟨0, _⟩ => rfl | ⟨1, _⟩ => rfl)

theorem ridx_v3 (r : Fin 16384) (j k : Fin 2048) : ridx_main_v3 (ix2 r j) k = ix2 k j :=
  funext fun a => Fin.ext (by match a with | ⟨0, _⟩ => rfl | ⟨1, _⟩ => rfl)

/-- The reference's result array is the logistic function of each row's score. -/
theorem stage_eq (x : FVec Ideal S16384x2048 .f32) (w0 : FVec Ideal S1x1 .f32) (w1 : FVec Ideal S2048x1 .f32)
    (w2 : FVec Ideal S2048x2048 .f32) :
    val_main_v13 (F := Ideal) x w0 w1 w2 = Cert.Poly2.result x w0 w1 w2 := by
  funext i
  obtain ⟨r, u, rfl⟩ : ∃ (r : Fin 16384) (u : Fin 1), i = ix2 r u := ⟨i 0, i 1, eq_ix2 i⟩
  rw [Cert.Poly2.result_apply, val_main_v13_apply, val_main_v12_apply, val_main_cst_1_apply, val_main_v11_apply,
    val_main_v10_apply, val_main_cst_0_apply, val_main_v9_apply, val_main_v8_apply, val_main_v7_apply,
    val_main_v2_apply, val_main_v1_apply, val_main_v0_apply, val_main_v6_apply, val_main_v5_apply, val_main_cst_apply]
  simp only [val_main_v4_apply, val_main_v3_apply, lidx_v0, ridx_v0, idx_v1, idx_v5, lidx_v3, ridx_v3,
    Ideal.ofBits_def, Ideal.ofBits_zero_f32, Cert.Poly2.ofBits_one_f32, zero_add, Ideal.addf_def, Ideal.mulf_def]
  rfl

end Cert.ReferenceIdeal.RefValue

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KernelPoint.lean ====
/-
  What one grid point computes, read at an entry.

  A grid point holds a block of 1024 rows of x, the whole of w1 and w2, and w0. At the row p of the block the
  body's stored value is the logistic function of
      (w0 + Σ_k xb[p,k]·w1[k]) + Σ_j (Σ_k xb[p,k]·w2[k,j]) · xb[p,j]:
  the two matrix products go into zero accumulators, so each entry is the plain contraction sum; the change of
  float format of the block is the identity on the extended reals; the sum along the lanes starts from zero; the
  vector of row sums is made a column; and w0 is repeated down the column.
-/
import proofs.«168103_j73521250173556_1_alg».proof.Proof.Gen.KernelIdeal.Skeleton
import proofs.«168103_j73521250173556_1_alg».proof.Proof.LibPlainDot
import Idealize.ShloMosaic.Lib.Pipeline.Value

noncomputable section

namespace Cert.KernelIdeal.Point

open Cert.KernelIdeal Cert.KernelIdeal.Gen Idealize.ShloMosaic Idealize.ShloMosaic.ValueIdx
open scoped BigOperators

/-- The one entry of w0 repeated down a column of 1024 rows. -/
theorem bias_apply (v : FVec Ideal S1x1 .f32) (p : Fin 1024) (u : Fin 1) :
    broadcastTo S1024x1 v broadcasts_S1x1_S1024x1 (ix2 p u) = v (ix2 (0 : Fin 1) (0 : Fin 1)) := by
  refine broadcastTo_apply v broadcasts_S1x1_S1024x1 (ix2 p u) (ix2 (0 : Fin 1) (0 : Fin 1)) fun ax => ?_
  match ax with
  | ⟨0, _⟩ => show 0 = if (1 : Nat) = 1 then 0 else p.val; rw [if_pos rfl]
  | ⟨1, _⟩ => show 0 = if (1 : Nat) = 1 then 0 else u.val; rw [if_pos rfl]

/-- The linear term of row p of the block: Σ_k xb[p,k]·w1[k,0]. -/
theorem lin_apply (xb : FVec Ideal S1024x2048 .bf16) (w1 : FVec Ideal S2048x1 .bf16) (p : Fin 1024) :
    matmul dot_S1024x2048_S2048x1_S1024x1_1_0_0_1_n_n none xb w1 (constant (F := Ideal) S1024x1 .f32 0x00000000#32)
        (ix2 p (0 : Fin 1))
      = ∑ k : Fin 2048, xb (ix2 p k) * w1 (ix2 k (0 : Fin 1)) :=
  PlainDot.matmul_zero_apply dot_S1024x2048_S2048x1_S1024x1_1_0_0_1_n_n rfl rfl rfl rfl rfl rfl none xb w1 p 0

/-- The quadratic term of row p of the block: Σ_j (Σ_k xb[p,k]·w2[k,j]) · xb[p,j]. -/
theorem quad_apply (xb : FVec Ideal S1024x2048 .bf16) (w2 : FVec Ideal S2048x2048 .bf16) (p : Fin 1024) (u : Fin 1) :
    shapeCast S1024x1
        (multiReduction .add [1] S1024
          (mulf (matmul dot_S1024x2048_S2048x2048_S1024x2048_1_0_0_1_n_n none xb w2
              (constant (F := Ideal) S1024x2048 .f32 0x00000000#32))
            (extf .f32 xb bitsLt_bf16_f32))
          0x00000000#32 reduces_S1024x2048_S1024 (.inl rfl) rfl)
        shapeCasts_S1024_S1024x1 (ix2 p u)
      = ∑ j : Fin 2048, (∑ k : Fin 2048, xb (ix2 p k) * w2 (ix2 k j)) * xb (ix2 p j) := by
  refine (PlainDot.shapeCast_a_a1_apply _ _ p u).trans ((PlainDot.rowSum_apply _ _ _ _ _ p).trans
    (Finset.sum_congr rfl fun j _ => ?_))
  exact congrArg (· * xb (ix2 p j))
    (PlainDot.matmul_zero_apply dot_S1024x2048_S2048x2048_S1024x2048_1_0_0_1_n_n rfl rfl rfl rfl rfl rfl none xb w2 p j)

/-- The stored value at row p of the block. -/
theorem pay_apply (xb : Vec Ideal S1024x2048 .bf16) (w2 : Vec Ideal S2048x2048 .bf16) (w1 : Vec Ideal S2048x1 .bf16)
    (w0 : Vec Ideal S1x1 .f32) (p : Fin 1024) (u : Fin 1) :
    k0_pay1 (F := Ideal) xb w2 w1 w0 (ix2 p u)
      = Ideal.logistic ((w0 (ix2 (0 : Fin 1) (0 : Fin 1)) + ∑ k : Fin 2048, xb (ix2 p k) * w1 (ix2 k (0 : Fin 1)))
          + ∑ j : Fin 2048, (∑ k : Fin 2048, xb (ix2 p k) * w2 (ix2 k j)) * xb (ix2 p j)) := by
  obtain rfl : u = 0 := Subsingleton.elim _ _
  unfold k0_pay1
  simp only [shapeCast_self]
  refine congrArg Ideal.logistic ?_
  exact congrArg₂ (· + ·) (congrArg₂ (· + ·) (bias_apply w0 p 0) (lin_apply xb w1 p)) (quad_apply xb w2 p 0)

end Cert.KernelIdeal.Point

end
-- ==== Proof.KernelArray.lean ====
/-
  From grid points to the whole result array.

  The sixteen grid points each take 1024 consecutive rows of x (block t is rows 1024·t … 1024·t + 1023) together
  with the whole of w0, w1 and w2, and write back the matching 1024 rows of the result column. The arrays the
  blocks are cut from are the arguments themselves: x, w1 and w2 pass through a change of float format before the
  region, which is the identity on the extended reals. So point t writes rows 1024·t … of the specification, the
  sixteen row blocks tile the 16384 rows (row r lies in block r / 1024), and the result array ends holding the
  specification of the argument arrays.
-/
import proofs.«168103_j73521250173556_1_alg».proof.Proof.Gen.KernelIdeal.Value
import proofs.«168103_j73521250173556_1_alg».proof.Proof.KernelPoint
import proofs.«168103_j73521250173556_1_alg».proof.Proof.Spec
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-! ## The argument arrays, as extended-real arrays of their literal shapes -/

abbrev xArr (c : Dev nD) : S16384x2048.Idx → EReal := m ((c : Thread nD τ).loc main_arg0)
abbrev w0Arr (c : Dev nD) : S1x1.Idx → EReal := m ((c : Thread nD τ).loc main_arg1)
abbrev w1Arr (c : Dev nD) : S2048x1.Idx → EReal := m ((c : Thread nD τ).loc main_arg2)
abbrev w2Arr (c : Dev nD) : S2048x2048.Idx → EReal := m ((c : Thread nD τ).loc main_arg3)

/-- The result the kernel is shown to leave: the specification of the argument arrays. -/
abbrev spec (c : Dev nD) : S16384x1.Idx → EReal := Cert.Poly2.result (xArr m c) (w0Arr m c) (w1Arr m c) (w2Arr m c)

/-! ## The arrays the region finds: a change of float format is the identity -/

theorem found_x (c : Dev nD) : (V m c main_v0 : S16384x2048.Idx → EReal) = xArr m c := by
  dsimp only [Gen.V, Gen.hostOps0]; after_results; rfl

theorem found_w1 (c : Dev nD) : (V m c main_v1 : S2048x1.Idx → EReal) = w1Arr m c := by
  dsimp only [Gen.V, Gen.hostOps0]; after_results; rfl

theorem found_w2 (c : Dev nD) : (V m c main_v2 : S2048x2048.Idx → EReal) = w2Arr m c := by
  dsimp only [Gen.V, Gen.hostOps0]; after_results; rfl

/-! ## The printed index maps over the sixteen points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 :=
  lt_of_lt_of_eq t.isLt (show cfg0.N = 16 from N_0)

/-- Row p of block t is row 1024·t + p of the array. -/
def row (t : Fin cfg0.N) (p : Fin 1024) : Fin 16384 := ⟨1024 * t.val + p.val, by have := point_lt t; have := p.isLt; omega⟩

/-! ## Each window's block at a point, read at an entry -/

/-- The block of x at point t: its rows are rows 1024·t … of x. -/
theorem xblk_apply (c : Dev nD) (t : Fin cfg0.N) (p : Fin 1024) (k : Fin 2048) :
    (iblk m c 0 t : Vec Ideal S1024x2048 .bf16) (ix2 p k) = xArr m c (ix2 (row t p) k) := by
  obtain ⟨e0, e1, -⟩ := idx_facts t
  unfold iblk
  rw [View.read_apply]
  show (V m c main_v0 : S16384x2048.Idx → EReal) _ = _
  rw [found_x]
  refine congrArg (xArr m c) (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 2048 + 1 * k.val = k.val; rw [e1]; omega

/-- The block of w0 at any point is w0. -/
theorem w0blk_apply (c : Dev nD) (t : Fin cfg0.N) (a b : Fin 1) :
    (iblk m c 1 t : Vec Ideal S1x1 .f32) (ix2 a b) = w0Arr m c (ix2 a b) := by
  obtain ⟨-, -, e0, e1, -⟩ := idx_facts t
  unfold iblk
  rw [View.read_apply]
  show (V m c main_arg1 : S1x1.Idx → EReal) _ = _
  rw [V_main_arg1]
  refine congrArg (w0Arr m c) (funext fun d => Fin.ext ?_)
  match d with
  | ⟨0, _⟩ => show win0_1.index t (0 : Fin 2) * 1 + 1 * a.val = a.val; rw [e0]; omega
  | ⟨1, _⟩ => show win0_1.index t (1 : Fin 2) * 1 + 1 * b.val = b.val; rw [e1]; omega

/-- The block of w1 at any point is w1. -/
theorem w1blk_apply (c : Dev nD) (t : Fin cfg0.N) (k : Fin 2048) (b : Fin 1) :
    (iblk m c 2 t : Vec Ideal S2048x1 .bf16) (ix2 k b) = w1Arr m c (ix2 k b) := by
  obtain ⟨-, -, -, -, e0, e1, -⟩ := idx_facts t
  unfold iblk
  rw [View.read_apply]
  show (V m c main_v1 : S2048x1.Idx → EReal) _ = _
  rw [found_w1]
  refine congrArg (w1Arr m c) (funext fun d => Fin.ext ?_)
  match d with
  | ⟨0, _⟩ => show win0_2.index t (0 : Fin 2) * 2048 + 1 * k.val = k.val; rw [e0]; omega
  | ⟨1, _⟩ => show win0_2.index t (1 : Fin 2) * 1 + 1 * b.val = b.val; rw [e1]; omega

/-- The block of w2 at any point is w2. -/
theorem w2blk_apply (c : Dev nD) (t : Fin cfg0.N) (k j : Fin 2048) :
    (iblk m c 3 t : Vec Ideal S2048x2048 .bf16) (ix2 k j) = w2Arr m c (ix2 k j) := by
  obtain ⟨-, -, -, -, -, -, e0, e1, -⟩ := idx_facts t
  unfold iblk
  rw [View.read_apply]
  show (V m c main_v2 : S2048x2048.Idx → EReal) _ = _
  rw [found_w2]
  refine congrArg (w2Arr m c) (funext fun d => Fin.ext ?_)
  match d with
  | ⟨0, _⟩ => show win0_3.index t (0 : Fin 2) * 2048 + 1 * k.val = k.val; rw [e0]; omega
  | ⟨1, _⟩ => show win0_3.index t (1 : Fin 2) * 2048 + 1 * j.val = j.val; rw [e1]; omega

/-! ## What a point writes back -/

/-- The entry (p, u) of the result's block at point t is the entry (1024·t + p, u) of the result array. -/
theorem out_emb (t : Fin cfg0.N) (p : Fin 1024) (u : Fin 1) :
    ((cfg0.win 4).blk t).view.emb (ix2 p u : S1024x1.Idx) = (ix2 (row t p) u : S16384x1.Idx) := by
  obtain ⟨-, -, -, -, -, -, -, -, e0, e1⟩ := idx_facts t
  refine funext fun a => Fin.ext ?_
  match a with
  | ⟨0, _⟩ => show win0_4.index t (0 : Fin 2) * 1024 + 1 * p.val = 1024 * t.val + p.val; rw [e0]; omega
  | ⟨1, _⟩ => show win0_4.index t (1 : Fin 2) * 1 + 1 * u.val = u.val; rw [e1]; omega

/-- Point t writes back block t of the specification. -/
theorem flushed_eq (c : Dev nD) (t : Fin cfg0.N) :
    (dats m 0 c).flushed 4 t = ((cfg0.win 4).blk t).view.read (Elt Ideal) (spec m c) := by
  rw [Cert.KernelIdeal.Value.flushed4]
  unfold out0_4
  rw [View.canon_unit_zero zero_offsets]
  simp only [View.ld_unit_zero (S := S1024x2048) zero_offsets, View.ld_unit_zero (S := S2048x2048) zero_offsets,
    View.ld_unit_zero (S := S2048x1) zero_offsets, View.ld_unit_zero (S := S1x1) zero_offsets]
  funext j
  obtain ⟨p, u, rfl⟩ : ∃ (p : Fin 1024) (u : Fin 1), j = (ix2 p u : S1024x1.Idx) := ⟨j 0, j 1, eq_ix2 j⟩
  show k0_pay1 (F := Ideal) (iblk m c 0 t) (iblk m c 3 t) (iblk m c 2 t) (iblk m c 1 t) (ix2 p u)
    = spec m c (((cfg0.win 4).blk t).view.emb (ix2 p u : S1024x1.Idx))
  rw [out_emb]
  show _ = Ideal.logistic (Cert.Poly2.score (xArr m c) (w0Arr m c) (w1Arr m c) (w2Arr m c) (row t p))
  refine (Cert.KernelIdeal.Point.pay_apply (iblk m c 0 t) (iblk m c 3 t) (iblk m c 2 t) (iblk m c 1 t) p u).trans ?_
  refine congrArg Ideal.logistic ?_
  unfold Cert.Poly2.score Cert.Poly2.lin Cert.Poly2.quad
  refine congrArg₂ (· + ·) (congrArg₂ (· + ·) (w0blk_apply m c t 0 0)
      (Finset.sum_congr rfl fun k _ => congrArg₂ (· * ·) (xblk_apply m c t p k) (w1blk_apply m c t k 0)))
    (Finset.sum_congr rfl fun j _ => congrArg₂ (· * ·)
      (Finset.sum_congr rfl fun k _ => congrArg₂ (· * ·) (xblk_apply m c t p k) (w2blk_apply m c t k j))
      (xblk_apply m c t p j))

/-! ## The sixteen row blocks tile the result -/

theorem mem_blk (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3).slice (win0_4.rect t)).set ↔ _
  rw [View.set_slice_whole, Rect.mem_set_unit]
  exact Iff.rfl

/-- Row r of the result lies in the block of point r / 1024. -/
theorem cover (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have hN : cfg0.N = 16 := N_0
  let t : Fin cfg0.N := ⟨(i 0).val / 1024, by rw [hN]; omega⟩
  obtain ⟨-, -, -, -, -, -, -, -, e0, e1⟩ := idx_facts t
  have ht : t.val = (i 0).val / 1024 := rfl
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1 ≤ (i 1).val ∧ (i 1).val < win0_4.index t (1 : Fin 2) * 1 + 1
    rw [e1]; omega

/-- The result array after the run is the specification of the argument arrays. -/
theorem final (c : Dev nD) : (dats m 0 c).arrAt 4 cfg0.N = spec m c :=
  (dats m 0 c).arrAt_eq_of_cover 4 (spec m c) (fun t _ => flushed_eq m c t) cover

/-! ## The run -/

/-- Every weakly fair execution of the kernel's program ends with the result array at the specification and the
    argument arrays unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.lean ====
/-
  The kernel and its reference compute one function of their arguments.

  For x of shape [16384, 2048], w0 of shape [1, 1], w1 of shape [2048, 1] and w2 of shape [2048, 2048], the result
  at (r, 0) is the logistic function 1 / (1 + e^(-s)) of the score
      s = (w0 + Σ_k x[r,k]·w1[k]) + Σ_j (Σ_k x[r,k]·w2[k,j]) · x[r,j].
  The kernel cuts the rows of x into sixteen blocks of 1024, holds the weights whole, forms the two matrix products
  into zero accumulators, sums the products' rows and applies the logistic function as one operation; its narrower
  float format for x, w1 and w2 is the identity on the extended reals. The reference forms the same two products and
  the same row sum on whole arrays and spells the logistic function as a quotient of one by one plus an
  exponential of the negated score, which on the extended reals is that function by definition. Both group the
  three summands the same way, and only commutative-monoid sums are compared, so the equality holds at every
  extended-real input and the finiteness of the inputs is never used.

  The frames of the two kernel programs are the generated ones; the reference's frame is its generated run with
  the result dropped; the idealization rewrote nothing, so there is nothing to preserve.
-/
import proofs.«168103_j73521250173556_1_alg».proof.Defs
import proofs.«168103_j73521250173556_1_alg».proof.Proof.Gen.Kernel
import proofs.«168103_j73521250173556_1_alg».proof.Proof.Gen.Kernel.Skeleton
import proofs.«168103_j73521250173556_1_alg».proof.Proof.Gen.Kernel.Launch
import proofs.«168103_j73521250173556_1_alg».proof.Proof.Gen.Kernel.Points
import proofs.«168103_j73521250173556_1_alg».proof.Proof.Gen.Kernel.Frame
import proofs.«168103_j73521250173556_1_alg».proof.Proof.Gen.KernelIdeal
import proofs.«168103_j73521250173556_1_alg».proof.Proof.Gen.KernelIdeal.Skeleton
import proofs.«168103_j73521250173556_1_alg».proof.Proof.Gen.KernelIdeal.Launch
import proofs.«168103_j73521250173556_1_alg».proof.Proof.Gen.KernelIdeal.Points
import proofs.«168103_j73521250173556_1_alg».proof.Proof.Gen.KernelIdeal.Frame
import proofs.«168103_j73521250173556_1_alg».proof.Proof.Gen.ReferenceIdeal
import proofs.«168103_j73521250173556_1_alg».proof.Proof.Gen.Pre_finite_inputs
import proofs.«168103_j73521250173556_1_alg».proof.Proof.Gen.KernelIdeal.Value
import proofs.«168103_j73521250173556_1_alg».proof.Proof.Gen.ReferenceIdeal.Run
import proofs.«168103_j73521250173556_1_alg».proof.Proof.Gen.ReferenceIdeal.Read
import proofs.«168103_j73521250173556_1_alg».proof.Proof.Spec
import proofs.«168103_j73521250173556_1_alg».proof.Proof.RefValue
import proofs.«168103_j73521250173556_1_alg».proof.Proof.KernelPoint
import proofs.«168103_j73521250173556_1_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the logistic function of
    each row's score. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.stage_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
